-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4x16 : Shape := ⟨3, ![8192, 4, 16]⟩
abbrev S8192 : Shape := ⟨1, ![8192]⟩
abbrev S1000000x128 : Shape := ⟨2, ![1000000, 128]⟩
abbrev S64x128 : Shape := ⟨2, ![64, 128]⟩
abbrev S128x128 : Shape := ⟨2, ![128, 128]⟩
abbrev S128 : Shape := ⟨1, ![128]⟩
abbrev S512x128 : Shape := ⟨2, ![512, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_arg7 : FVec F S128 .f32) (main_arg8 : FVec F S512x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg8
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S8192x4x16 32) (main_arg1 : IVec S8192 32) (main_arg2 : IVec S8192 32) (main_arg3 : FVec F S1000000x128 .f32) (main_arg4 : FVec F S1000000x128 .f32) (main_arg5 : FVec F S64x128 .f32) (main_arg6 : FVec F S128x128 .f32) (main_arg7 : FVec F S128 .f32) (main_arg8 : FVec F S512x128 .f32) (main_arg9 : FVec F S128 .f32) : IVec S_ 1 :=
  let main_v0 : FVec F S1000000x128 .f32 := Host.absf main_arg3
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x128 .f32 := Host.absf main_arg4
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S64x128 .f32 := Host.absf main_arg5
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S8192x4x16 : Shape := ⟨3, ![8192, 4, 16]⟩
abbrev S8192 : Shape := ⟨1, ![8192]⟩
abbrev S1000000x128 : Shape := ⟨2, ![1000000, 128]⟩
abbrev S64x128 : Shape := ⟨2, ![64, 128]⟩
abbrev S128x128 : Shape := ⟨2, ![128, 128]⟩
abbrev S128 : Shape := ⟨1, ![128]⟩
abbrev S512x128 : Shape := ⟨2, ![512, 128]⟩
abbrev S_ : Shape := ⟨0, ![]⟩
abbrev S8192x4x16x1 : Shape := ⟨4, ![8192, 4, 16, 1]⟩
abbrev S8192x4x16x128 : Shape := ⟨4, ![8192, 4, 16, 128]⟩
abbrev S8192x1 : Shape := ⟨2, ![8192, 1]⟩
abbrev S8192x128 : Shape := ⟨2, ![8192, 128]⟩
abbrev S512x4x16x128 : Shape := ⟨4, ![512, 4, 16, 128]⟩
abbrev S512 : Shape := ⟨1, ![512]⟩
abbrev S512x4x128 : Shape := ⟨3, ![512, 4, 128]⟩
abbrev S2048x128 : Shape := ⟨2, ![2048, 128]⟩
abbrev S1x128 : Shape := ⟨2, ![1, 128]⟩
abbrev S512x512 : Shape := ⟨2, ![512, 512]⟩

abbrev nBuf : Space → Nat
  | .hbm => 38
  | .vmem => 12
  | .smem => 0
  | _ => 0

abbrev bufTy : (tb : Table) → Fin (tcTables nBuf tb) → BufTy
  | .hbm, ⟨0, _⟩ => ⟨S8192x4x16, .i32⟩
  | .hbm, ⟨1, _⟩ => ⟨S8192, .i32⟩
  | .hbm, ⟨2, _⟩ => ⟨S8192, .i32⟩
  | .hbm, ⟨3, _⟩ => ⟨S1000000x128, .f32⟩
  | .hbm, ⟨4, _⟩ => ⟨S1000000x128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S512x128, .f32⟩
  | .hbm, ⟨9, _⟩ => ⟨S128, .f32⟩
  | .hbm, ⟨10, _⟩ => ⟨S_, .i32⟩
  | .hbm, ⟨11, _⟩ => ⟨S8192x4x16, .i32⟩
  | .hbm, ⟨12, _⟩ => ⟨S8192x4x16, .i1⟩
  | .hbm, ⟨13, _⟩ => ⟨S_, .i32⟩
  | .hbm, ⟨14, _⟩ => ⟨S8192x4x16, .i32⟩
  | .hbm, ⟨15, _⟩ => ⟨S8192x4x16, .i32⟩
  | .hbm, ⟨16, _⟩ => ⟨S8192x4x16, .i32⟩
  | .hbm, ⟨17, _⟩ => ⟨S8192x4x16x1, .i32⟩
  | .hbm, ⟨18, _⟩ => ⟨S8192x4x16x128, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x128, .f32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x128, .f32⟩
  | .hbm, ⟨37, _⟩ => ⟨S8192, .f32⟩
  | .local _ .vmem, ⟨0, _⟩ => ⟨S512x4x16x128, .f32⟩
  | .local _ .vmem, ⟨1, _⟩ => ⟨S512x4x16x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S128, .f32⟩
  | .local _ .vmem, ⟨8, _⟩ => ⟨S512x128, .f32⟩
  | .local _ .vmem, ⟨9, _⟩ => ⟨S128, .f32⟩
  | .local _ .vmem, ⟨10, _⟩ => ⟨S512, .f32⟩
  | .local _ .vmem, ⟨11, _⟩ => ⟨S512, .f32⟩
  | _, _ => ⟨S8192x4x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x4x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8192x4x16 : S_.BroadcastsInDim S8192x4x16 (![] : Fin 0 → Fin S8192x4x16.rank)
  bcast_S8192x4x16_S8192x4x16x1_0_1_2 : S8192x4x16.BroadcastsInDim S8192x4x16x1 (![0, 1, 2] : Fin 3 → Fin S8192x4x16x1.rank)
  bcast_S_S8192 : S_.BroadcastsInDim S8192 (![] : Fin 0 → Fin S8192.rank)
  bcast_S8192_S8192x1_0 : S8192.BroadcastsInDim S8192x1 (![0] : Fin 1 → Fin S8192x1.rank)
  inb_S512x4x16x128_S512x4x16x128_0_0_0_0 : ∀ a, (![0, 0, 0, 0] : Fin 4 → Nat) a + S512x4x16x128.size a ≤ S512x4x16x128.size a
  h_S512x4x16x128 : 0 < S512x4x16x128.numel
  shapeCasts_S512x4x16x128_S512x4x16x128 : S512x4x16x128.ShapeCasts S512x4x16x128
  reduces_S512x4x16x128_S512x4x128 : S512x4x16x128.Reduces [2] S512x4x128
  bitsLt_bf16_f32 : FTy.bits .bf16 < FTy.bits .f32
  shapeCasts_S512x4x128_S2048x128 : S512x4x128.ShapeCasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  shapeCasts_S2048x128_S512x512 : S2048x128.ShapeCasts S512x512
  inb_S512x128_S512x128_0_0 : ∀ a, (![0, 0] : Fin 2 → Nat) a + S512x128.size a ≤ S512x128.size a
  h_S512x128 : 0 < S512x128.numel
  broadcasts_S1x128_S512x128 : S1x128.Broadcasts S512x128
  shapeCasts_S512x128_S512x128 : S512x128.ShapeCasts S512x128
  reduces_S512x128_S512 : S512x128.Reduces [1] S512
  inb_S512_S512_0 : ∀ a, (![0] : Fin 1 → Nat) a + S512.size a ≤ S512.size a
  h_S512 : 0 < S512.numel
  gather_S1000000x128_S8192x4x16x1_S8192x4x16x128_3_0_n_n_0_3_1128_wf : GatherDims.WF S1000000x128 S8192x4x16x1 S8192x4x16x128 [3] [0] [] [0] [] 3 ![1, 128]
  gather_S1000000x128_S8192x1_S8192x128_1_0_n_n_0_1_1128_wf : GatherDims.WF S1000000x128 S8192x1 S8192x128 [1] [0] [] [0] [] 1 ![1, 128]
  gather_S64x128_S8192x1_S8192x128_1_0_n_n_0_1_1128_wf : GatherDims.WF S64x128 S8192x1 S8192x128 [1] [0] [] [0] [] 1 ![1, 128]
  dot_S2048x128_S128x128_S2048x128_1_0_0_1_n_n_wf : DotDims.WF S2048x128 S128x128 S2048x128 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4x16x128.size a ≤ S8192x4x16x128.size a
  hwx0_0 : ∀ i : grid0.Coords, EltTy.bits .f32 = 32 ∨ (Rect.block (s := S8192x4x16x128) S512x4x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S8192.size a
  hwx0_7 : ∀ i : grid0.Coords, EltTy.bits .f32 = 32 ∨ (Rect.block (s := S8192) S512.size (cc0_transform_7 i) (hinb0_7 i)).WholeWords (EltTy.packing .f32)

variable [Facts₀]

def gather_S1000000x128_S8192x4x16x1_S8192x4x16x128_3_0_n_n_0_3_1128 : GatherDims S1000000x128 S8192x4x16x1 S8192x4x16x128 where
  offsetDims := [3]
  collapsedSliceDims := [0]
  operandBatchingDims := []
  startIndicesBatchingDims := []
  startIndexMap := [0]
  indexVectorDim := 3
  sliceSizes := ![1, 128]
  wf := gather_S1000000x128_S8192x4x16x1_S8192x4x16x128_3_0_n_n_0_3_1128_wf
def gather_S1000000x128_S8192x1_S8192x128_1_0_n_n_0_1_1128 : GatherDims S1000000x128 S8192x1 S8192x128 where
  offsetDims := [1]
  collapsedSliceDims := [0]
  operandBatchingDims := []
  startIndicesBatchingDims := []
  startIndexMap := [0]
  indexVectorDim := 1
  sliceSizes := ![1, 128]
  wf := gather_S1000000x128_S8192x1_S8192x128_1_0_n_n_0_1_1128_wf
def gather_S64x128_S8192x1_S8192x128_1_0_n_n_0_1_1128 : GatherDims S64x128 S8192x1 S8192x128 where
  offsetDims := [1]
  collapsedSliceDims := [0]
  operandBatchingDims := []
  startIndicesBatchingDims := []
  startIndexMap := [0]
  indexVectorDim := 1
  sliceSizes := ![1, 128]
  wf := gather_S64x128_S8192x1_S8192x128_1_0_n_n_0_1_1128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_v6) S512x4x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x4x16 : Shape := ⟨3, ![8192, 4, 16]⟩
abbrev S8192 : Shape := ⟨1, ![8192]⟩
abbrev S1000000x128 : Shape := ⟨2, ![1000000, 128]⟩
abbrev S64x128 : Shape := ⟨2, ![64, 128]⟩
abbrev S128x128 : Shape := ⟨2, ![128, 128]⟩
abbrev S128 : Shape := ⟨1, ![128]⟩
abbrev S512x128 : Shape := ⟨2, ![512, 128]⟩
abbrev S_ : Shape := ⟨0, ![]⟩
abbrev S8192x4x16x1 : Shape := ⟨4, ![8192, 4, 16, 1]⟩
abbrev S8192x4x16x128 : Shape := ⟨4, ![8192, 4, 16, 128]⟩
abbrev S8192x4x128 : Shape := ⟨3, ![8192, 4, 128]⟩
abbrev S1x1x128 : Shape := ⟨3, ![1, 1, 128]⟩
abbrev S8192x512 : Shape := ⟨2, ![8192, 512]⟩
abbrev S8192x128 : Shape := ⟨2, ![8192, 128]⟩
abbrev S1x128 : Shape := ⟨2, ![1, 128]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x4x16, .i32⟩
  | .hbm, ⟨1, _⟩ => ⟨S8192, .i32⟩
  | .hbm, ⟨2, _⟩ => ⟨S8192, .i32⟩
  | .hbm, ⟨3, _⟩ => ⟨S1000000x128, .f32⟩
  | .hbm, ⟨4, _⟩ => ⟨S1000000x128, .f32⟩
  | .hbm, ⟨5, _⟩ => ⟨S64x128, .f32⟩
  | .hbm, ⟨6, _⟩ => ⟨S128x128, .f32⟩
  | .hbm, ⟨7, _⟩ => ⟨S128, .f32⟩
  | .hbm, ⟨8, _⟩ => ⟨S512x128, .f32⟩
  | .hbm, ⟨9, _⟩ => ⟨S128, .f32⟩
  | .hbm, ⟨10, _⟩ => ⟨S_, .i32⟩
  | .hbm, ⟨11, _⟩ => ⟨S8192x4x16, .i32⟩
  | .hbm, ⟨12, _⟩ => ⟨S8192x4x16, .i1⟩
  | .hbm, ⟨13, _⟩ => ⟨S_, .i32⟩
  | .hbm, ⟨14, _⟩ => ⟨S8192x4x16, .i32⟩
  | .hbm, ⟨15, _⟩ => ⟨S8192x4x16, .i32⟩
  | .hbm, ⟨16, _⟩ => ⟨S8192x4x16, .i32⟩
  | .hbm, ⟨17, _⟩ => ⟨S8192x4x16x1, .i32⟩
  | .hbm, ⟨18, _⟩ => ⟨S8192x4x16x128, .f32⟩
  | .hbm, ⟨19, _⟩ => ⟨S_, .f32⟩
  | .hbm, ⟨20, _⟩ => ⟨S8192x4x128, .f32⟩
  | .hbm, ⟨21, _⟩ => ⟨S_, .f32⟩
  | .hbm, ⟨22, _⟩ => ⟨S8192x4x128, .f32⟩
  | .hbm, ⟨23, _⟩ => ⟨S8192x4x128, .f32⟩
  | .hbm, ⟨24, _⟩ => ⟨S8192x4x128, .f32⟩
  | .hbm, ⟨25, _⟩ => ⟨S1x1x128, .f32⟩
  | .hbm, ⟨26, _⟩ => ⟨S8192x4x128, .f32⟩
  | .hbm, ⟨27, _⟩ => ⟨S8192x4x128, .f32⟩
  | .hbm, ⟨28, _⟩ => ⟨S8192x512, .f32⟩
  | .hbm, ⟨29, _⟩ => ⟨S8192x128, .f32⟩
  | .hbm, ⟨30, _⟩ => ⟨S1x128, .f32⟩
  | .hbm, ⟨31, _⟩ => ⟨S8192x128, .f32⟩
  | .hbm, ⟨32, _⟩ => ⟨S8192x128, .f32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S8192x128, .f32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S8192x1, .i32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | _, _ => ⟨S8192x4x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  bcast_S_S8192x4x16 : S_.BroadcastsInDim S8192x4x16 (![] : Fin 0 → Fin S8192x4x16.rank)
  bcast_S8192x4x16_S8192x4x16x1_0_1_2 : S8192x4x16.BroadcastsInDim S8192x4x16x1 (![0, 1, 2] : Fin 3 → Fin S8192x4x16x1.rank)
  reducesTo_S8192x4x16x128_S8192x4x128_d2 : S8192x4x16x128.ReducesTo [2] S8192x4x128
  h_S_ : 0 < S_.numel
  bcast_S_S8192x4x128 : S_.BroadcastsInDim S8192x4x128 (![] : Fin 0 → Fin S8192x4x128.rank)
  bcast_S128_S1x1x128_2 : S128.BroadcastsInDim S1x1x128 (![2] : Fin 1 → Fin S1x1x128.rank)
  bcast_S1x1x128_S8192x4x128_0_1_2 : S1x1x128.BroadcastsInDim S8192x4x128 (![0, 1, 2] : Fin 3 → Fin S8192x4x128.rank)
  shapeCasts_S8192x4x128_S8192x512 : S8192x4x128.ShapeCasts S8192x512
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  reducesTo_S8192x128_S8192_d1 : S8192x128.ReducesTo [1] S8192
  gather_S1000000x128_S8192x4x16x1_S8192x4x16x128_3_0_n_n_0_3_1128_wf : GatherDims.WF S1000000x128 S8192x4x16x1 S8192x4x16x128 [3] [0] [] [0] [] 3 ![1, 128]
  dot_S8192x4x128_S128x128_S8192x4x128_2_0_01_1_n_n_wf : DotDims.WF S8192x4x128 S128x128 S8192x4x128 [2] [0] [0, 1] [1] [] []
  dot_S8192x512_S512x128_S8192x128_1_0_0_1_n_n_wf : DotDims.WF S8192x512 S512x128 S8192x128 [1] [0] [0] [1] [] []
  gather_S1000000x128_S8192x1_S8192x128_1_0_n_n_0_1_1128_wf : GatherDims.WF S1000000x128 S8192x1 S8192x128 [1] [0] [] [0] [] 1 ![1, 128]
  gather_S64x128_S8192x1_S8192x128_1_0_n_n_0_1_1128_wf : GatherDims.WF S64x128 S8192x1 S8192x128 [1] [0] [] [0] [] 1 ![1, 128]

variable [Facts₀]

def gather_S1000000x128_S8192x4x16x1_S8192x4x16x128_3_0_n_n_0_3_1128 : GatherDims S1000000x128 S8192x4x16x1 S8192x4x16x128 where
  offsetDims := [3]
  collapsedSliceDims := [0]
  operandBatchingDims := []
  startIndicesBatchingDims := []
  startIndexMap := [0]
  indexVectorDim := 3
  sliceSizes := ![1, 128]
  wf := gather_S1000000x128_S8192x4x16x1_S8192x4x16x128_3_0_n_n_0_3_1128_wf
def dot_S8192x4x128_S128x128_S8192x4x128_2_0_01_1_n_n : DotDims S8192x4x128 S128x128 S8192x4x128 where
  lhsContracting := [2]
  rhsContracting := [0]
  lhsNonContracting := [0, 1]
  rhsNonContracting := [1]
  lhsBatch := []
  rhsBatch := []
  wf := dot_S8192x4x128_S128x128_S8192x4x128_2_0_01_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def gather_S1000000x128_S8192x1_S8192x128_1_0_n_n_0_1_1128 : GatherDims S1000000x128 S8192x1 S8192x128 where
  offsetDims := [1]
  collapsedSliceDims := [0]
  operandBatchingDims := []
  startIndicesBatchingDims := []
  startIndexMap := [0]
  indexVectorDim := 1
  sliceSizes := ![1, 128]
  wf := gather_S1000000x128_S8192x1_S8192x128_1_0_n_n_0_1_1128_wf
def gather_S64x128_S8192x1_S8192x128_1_0_n_n_0_1_1128 : GatherDims S64x128 S8192x1 S8192x128 where
  offsetDims := [1]
  collapsedSliceDims := [0]
  operandBatchingDims := []
  startIndicesBatchingDims := []
  startIndexMap := [0]
  indexVectorDim := 1
  sliceSizes := ![1, 128]
  wf := gather_S64x128_S8192x1_S8192x128_1_0_n_n_0_1_1128_wf

class Facts : Prop extends Facts₀ where

variable [Facts]
-- ==== Proof.RowScore.lean ====
/-
  The mathematics both programs compute, one batch row at a time, on the extended reals.

  For one batch row there are 4 edge types, each with 16 neighbour embeddings of 128 features. The row's score is

    σ( Σ_g ( (Σ_j h_j · W2[j, g]) + b2[g] ) · end[g] · σ(path[g]) ),

  where h is the concatenation over the edge types of the first linear layer applied to each edge type's mean
  neighbour embedding: for j = e·128 + f,

    h_j = (Σ_d mean_k nei[e, k, d] · W1[d, f]) + b1[f],

  the mean being the sum over the 16 neighbours divided by 16, and σ x = 1 / (1 + e^(-x)).
-/
import Idealize.ShloMosaic.PureOps.Ideal
import Idealize.ShloMosaic.Lib.ValueIdx

noncomputable section

namespace Cert.Hin2vec

open Idealize.ShloMosaic Idealize.ShloMosaic.ValueIdx

/-- The edge type a concatenated feature j = e·128 + f belongs to. -/
abbrev edgeOf (j : Fin 512) : Fin 4 := ⟨j.val / 128, by have := j.isLt; omega⟩
/-- Its feature inside that edge type's block. -/
abbrev featOf (j : Fin 512) : Fin 128 := ⟨j.val % 128, Nat.mod_lt _ (by decide)⟩

/-- The mean of 16 numbers: their sum divided by sixteen (the float word of 16.0). -/
def nbrMean (x : Fin 16 → EReal) : EReal := Ideal.div (∑ k : Fin 16, x k) (Ideal.ofBits .f32 0x41800000#32)

/-- The first linear layer on the mean neighbour embedding of edge type e, at output feature f. -/
def hidden (nei : Fin 4 → Fin 16 → Fin 128 → EReal) (W1 : Fin 128 → Fin 128 → EReal) (b1 : Fin 128 → EReal)
    (e : Fin 4) (f : Fin 128) : EReal :=
  (∑ d : Fin 128, nbrMean (fun k => nei e k d) * W1 d f) + b1 f

/-- One batch row's score. -/
def rowScore (nei : Fin 4 → Fin 16 → Fin 128 → EReal) (ev pv : Fin 128 → EReal)
    (W1 : Fin 128 → Fin 128 → EReal) (b1 : Fin 128 → EReal) (W2 : Fin 512 → Fin 128 → EReal) (b2 : Fin 128 → EReal) : EReal :=
  Ideal.logistic (∑ g : Fin 128,
    ((∑ j : Fin 512, hidden nei W1 b1 (edgeOf j) (featOf j) * W2 j g) + b2 g) * ev g * Ideal.logistic (pv g))

/-- The whole result: row b's score from row b of the gathered neighbour, end and path embeddings. -/
def scores (nei : (⟨4, ![8192, 4, 16, 128]⟩ : Shape).Idx → EReal) (ev pv : (⟨2, ![8192, 128]⟩ : Shape).Idx → EReal)
    (W1 : (⟨2, ![128, 128]⟩ : Shape).Idx → EReal) (b1 : (⟨1, ![128]⟩ : Shape).Idx → EReal)
    (W2 : (⟨2, ![512, 128]⟩ : Shape).Idx → EReal) (b2 : (⟨1, ![128]⟩ : Shape).Idx → EReal) :
    (⟨1, ![8192]⟩ : Shape).Idx → EReal :=
  fun i => rowScore (fun e k d => nei (ix4 (i 0) e k d)) (fun g => ev (ix2 (i 0) g)) (fun g => pv (ix2 (i 0) g))
    (fun d f => W1 (ix2 d f)) (fun f => b1 (ix1 f)) (fun j g => W2 (ix2 j g)) (fun g => b2 (ix1 g))

end Cert.Hin2vec

end
-- ==== Proof.RefScores.lean ====
/-
  The reference computes the row scores.

  Read one operation at a time, the reference's result at batch row b is: the 16 gathered neighbour rows of each edge
  type summed and divided by 16; a 128-term sum against W1 plus b1 per edge type; the four results laid side by side
  (position j = e·128 + f); a 512-term sum against W2 plus b2; times the gathered end row, times
  1 / (1 + exp(-path row)); summed over the 128 features; and 1 / (1 + exp(-·)) of that. The initial value of each
  host sum is the zero word, and 1 / (1 + exp(-x)) is the logistic function on the extended reals by definition.
-/
import proofs.«131472_j49589692400134_1_alg».proof.Proof.Gen.ReferenceIdeal.Read
import proofs.«131472_j49589692400134_1_alg».proof.Proof.RowScore
import Idealize.ShloMosaic.Lib.IdealHost

noncomputable section

namespace Cert.Hin2vec.Ref

open Cert.ReferenceIdeal Cert.ReferenceIdeal.Read Idealize.ShloMosaic Idealize.ShloMosaic.ValueIdx Cert.Hin2vec

variable (x0 : (⟨S8192x4x16, .i32⟩ : BufTy).Contents (Elt Ideal)) (x1 x2 : (⟨S8192, .i32⟩ : BufTy).Contents (Elt Ideal))
  (x3 x4 : (⟨S1000000x128, .f32⟩ : BufTy).Contents (Elt Ideal)) (x5 : (⟨S64x128, .f32⟩ : BufTy).Contents (Elt Ideal))
  (x6 : (⟨S128x128, .f32⟩ : BufTy).Contents (Elt Ideal)) (x7 : (⟨S128, .f32⟩ : BufTy).Contents (Elt Ideal))
  (x8 : (⟨S512x128, .f32⟩ : BufTy).Contents (Elt Ideal)) (x9 : (⟨S128, .f32⟩ : BufTy).Contents (Elt Ideal))

/-- The mean over the neighbours of edge type e of row b, at feature d. -/
theorem mean_apply (b : Fin 8192) (e : Fin 4) (d : Fin 128) :
    val_main_v9 (F := Ideal) x0 x3 (ix3 b e d) = nbrMean (fun k => val_main_v6 (F := Ideal) x0 x3 (ix4 b e k d)) := by
  have hi : ∀ k : Fin 16, idx_main_v7 (ix3 b e d) k = ix4 b e k d := fun k =>
    funext fun a => Fin.ext (by match a with | ⟨0, _⟩ => rfl | ⟨1, _⟩ => rfl | ⟨2, _⟩ => rfl | ⟨3, _⟩ => rfl)
  rw [val_main_v9_apply, val_main_v7_apply, val_main_v8_apply, val_main_cst_apply, val_main_cst_1_apply]
  simp only [hi, Ideal.hostDivf_def, Ideal.ofBits_def, Ideal.ofBits_zero_f32, zero_add]
  rfl

/-- The first layer of row b at edge type e and output feature f. -/
theorem hidden_apply (b : Fin 8192) (e : Fin 4) (f : Fin 128) :
    val_main_v13 (F := Ideal) x0 x3 x6 x7 (ix3 b e f)
      = hidden (fun e k d => val_main_v6 (F := Ideal) x0 x3 (ix4 b e k d)) (fun d f => x6 (ix2 d f)) (fun f => x7 (ix1 f)) e f := by
  have hl : ∀ d : Fin 128, lidx_main_v10 (ix3 b e f) d = ix3 b e d := fun d =>
    funext fun a => Fin.ext (by match a with | ⟨0, _⟩ => rfl | ⟨1, _⟩ => rfl | ⟨2, _⟩ => rfl)
  have hr : ∀ d : Fin 128, ridx_main_v10 (ix3 b e f) d = ix2 d f := fun d =>
    funext fun a => Fin.ext (by match a with | ⟨0, _⟩ => rfl | ⟨1, _⟩ => rfl)
  have hb : idx_main_v11 (idx_main_v12 (ix3 b e f)) = ix1 f :=
    funext fun a => Fin.ext (by match a with | ⟨0, _⟩ => rfl)
  rw [val_main_v13_apply, val_main_v10_apply, val_main_v12_apply, val_main_v11_apply]
  simp only [hl, hr, hb, mean_apply]
  rfl

/-- The second layer of row b at output feature g, over the concatenated first-layer results. -/
theorem proj_apply (b : Fin 8192) (g : Fin 128) :
    val_main_v18 (F := Ideal) x0 x3 x6 x7 x8 x9 (ix2 b g)
      = (∑ j : Fin 512, hidden (fun e k d => val_main_v6 (F := Ideal) x0 x3 (ix4 b e k d)) (fun d f => x6 (ix2 d f)) (fun f => x7 (ix1 f))
            (edgeOf j) (featOf j) * x8 (ix2 j g)) + x9 (ix1 g) := by
  have hl : ∀ j : Fin 512, idx_main_v14 (lidx_main_v15 (ix2 b g) j) = ix3 b (edgeOf j) (featOf j) := fun j =>
    funext fun a => Fin.ext (by
      have hb := b.isLt; have hj := j.isLt
      match a with
      | ⟨0, _⟩ => show (b.val * 512 + j.val) / 512 = b.val; omega
      | ⟨1, _⟩ => show (b.val * 512 + j.val) / 128 % 4 = j.val / 128; omega
      | ⟨2, _⟩ => show (b.val * 512 + j.val) % 128 = j.val % 128; omega)
  have hr : ∀ j : Fin 512, ridx_main_v15 (ix2 b g) j = ix2 j g := fun j =>
    funext fun a => Fin.ext (by match a with | ⟨0, _⟩ => rfl | ⟨1, _⟩ => rfl)
  have hb : idx_main_v16 (idx_main_v17 (ix2 b g)) = ix1 g :=
    funext fun a => Fin.ext (by match a with | ⟨0, _⟩ => rfl)
  rw [val_main_v18_apply, val_main_v15_apply, val_main_v17_apply, val_main_v16_apply]
  simp only [val_main_v14_apply, hl, hr, hb, hidden_apply]
  rfl

/-- The host's 1 / (1 + exp(-x)) on the gathered path row is the logistic function of it. -/
theorem gate_apply (i : S8192x128.Idx) :
    val_main_v38 (F := Ideal) x2 x5 i = Ideal.logistic (val_main_v32 (F := Ideal) x2 x5 i) := by
  rw [val_main_v38_apply, val_main_v37_apply, val_main_cst_7_apply, val_main_v36_apply, val_main_v35_apply,
    val_main_cst_6_apply, val_main_v34_apply, val_main_v33_apply]
  simp only [Ideal.ofBits_def, Ideal.ofBits_one_f32]
  rfl

/-- THE REFERENCE'S RESULT is the row scores of the three gathered arrays and the weights. -/
theorem result_eq :
    val_main_v47 (F := Ideal) x0 x1 x2 x3 x4 x5 x6 x7 x8 x9
      = scores (val_main_v6 (F := Ideal) x0 x3) (val_main_v25 (F := Ideal) x1 x4) (val_main_v32 (F := Ideal) x2 x5) x6 x7 x8 x9 := by
  funext i
  obtain ⟨b, rfl⟩ : ∃ b : Fin 8192, i = ix1 b := ⟨i 0, eq_ix1 i⟩
  have hi : ∀ g : Fin 128, idx_main_v41 (ix1 b) g = ix2 b g := fun g =>
    funext fun a => Fin.ext (by match a with | ⟨0, _⟩ => rfl | ⟨1, _⟩ => rfl)
  rw [val_main_v47_apply, val_main_v46_apply, val_main_cst_10_apply, val_main_v45_apply, val_main_v44_apply,
    val_main_cst_9_apply, val_main_v43_apply, val_main_v42_apply, val_main_v41_apply, val_main_cst_8_apply]
  simp only [hi, val_main_v40_apply, val_main_v39_apply, proj_apply, gate_apply, Ideal.ofBits_def, Ideal.ofBits_one_f32,
    Ideal.ofBits_zero_f32, zero_add]
  rfl

end Cert.Hin2vec.Ref

end
-- ==== Proof.BlockScore.lean ====
/-
  The kernel body computes the row scores of its blocks.

  At one grid point the body holds a block of 512 batch rows: the gathered neighbour block [512, 4, 16, 128], the end and
  path blocks [512, 128], and the whole weights. It sums the 16 neighbours and divides by 16; lays the (row, edge type)
  pairs out as 2048 rows (row r is batch row r / 4, edge type r % 4) for one matrix product with W1, adds b1; lays the
  result out as [512, 512] (column j of batch row q comes from row q·4 + j / 128, column j % 128, that is edge type
  j / 128 and feature j % 128); one matrix product with W2, adds b2; multiplies by the end block and the logistic of
  the path block; sums over the 128 features; takes the logistic. A change of float format is the identity on the
  extended reals and a matrix product into a zero accumulator is the plain sum of products, so row q of the result is
  the row score of row q of the blocks.
-/
import proofs.«131472_j49589692400134_1_alg».proof.Proof.Gen.KernelIdeal.Skeleton
import proofs.«131472_j49589692400134_1_alg».proof.Proof.RowScore
import Idealize.ShloMosaic.Lib.Pipeline.Value
import Idealize.ShloMosaic.Lib.ValueIdx
import Idealize.ShloMosaic.Lib.ValueLayout
import Idealize.ShloMosaic.PureOps.Ideal.Laws

noncomputable section

namespace Cert.Hin2vec.Blk

open Cert.KernelIdeal Cert.KernelIdeal.Gen Idealize.ShloMosaic Idealize.ShloMosaic.ValueIdx Cert.Hin2vec

/-! ## The two lane sums -/

/-- The sum over the 16 neighbours, at batch row q, edge type e, feature d. -/
theorem nbr_sum (v : FVec Ideal S512x4x16x128 .f32) (q : Fin 512) (e : Fin 4) (d : Fin 128) :
    multiReduction .add [2] S512x4x128 v 0x00000000#32 reduces_S512x4x16x128_S512x4x128 (.inl rfl) rfl (ix3 q e d)
      = ∑ k : Fin 16, v (ix4 q e k d) := by
  refine (Ideal.multiReduction_add_single v 0x00000000#32 reduces_S512x4x16x128_S512x4x128 (.inl rfl) rfl (ix3 q e d)).trans ?_
  refine Finset.sum_congr rfl fun k _ => congrArg v ?_
  exact funext fun a => Fin.ext (by match a with | ⟨0, _⟩ => rfl | ⟨1, _⟩ => rfl | ⟨2, _⟩ => rfl | ⟨3, _⟩ => rfl)

/-- The sum over the 128 features, at batch row q. -/
theorem feat_sum (v : FVec Ideal S512x128 .f32) (q : Fin 512) :
    multiReduction .add [1] S512 v 0x00000000#32 reduces_S512x128_S512 (.inl rfl) rfl (ix1 q)
      = ∑ g : Fin 128, v (ix2 q g) := by
  refine (Ideal.multiReduction_add_single v 0x00000000#32 reduces_S512x128_S512 (.inl rfl) rfl (ix1 q)).trans ?_
  refine Finset.sum_congr rfl fun k _ => congrArg v ?_
  exact funext fun a => Fin.ext (by match a with | ⟨0, _⟩ => rfl | ⟨1, _⟩ => rfl)

/-! ## The two matrix products: rows times columns, summed over the shared axis -/

theorem lhsW1_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsW1_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsW1_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsW1_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The product with W1 into a zero accumulator, at row r and column f. -/
theorem mulW1_apply (l : FVec Ideal S2048x128 .bf16) (w : FVec Ideal S128x128 .bf16) (r : Fin 2048) (f : Fin 128) :
    matmul dot_S2048x128_S128x128_S2048x128_1_0_0_1_n_n none l w (constant (F := Ideal) S2048x128 .f32 0x00000000#32) (ix2 r f)
      = ∑ d : Fin 128, l (ix2 r d) * w (ix2 d f) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 r f) ((contrEquiv1 dot_S2048x128_S128x128_S2048x128_1_0_0_1_n_n 128 rfl rfl).symm k) = ix2 r k := funext fun a => Fin.ext (by
    match a with
    | ⟨0, _⟩ => exact lhsW1_0 _ _
    | ⟨1, _⟩ => exact (lhsW1_1 _ _).trans hk)
  have er : dot_S2048x128_S128x128_S2048x128_1_0_0_1_n_n.rhsIdx (ix2 r f) ((contrEquiv1 dot_S2048x128_S128x128_S2048x128_1_0_0_1_n_n 128 rfl rfl).symm k) = ix2 k f := funext fun a => Fin.ext (by
    match a with
    | ⟨0, _⟩ => exact (rhsW1_0 _ _).trans hk
    | ⟨1, _⟩ => exact rhsW1_1 _ _)
  rw [el, er]

theorem lhsW2_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhsW2_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhsW2_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhsW2_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- The product with W2 into a zero accumulator, at batch row q and column g. -/
theorem mulW2_apply (l : FVec Ideal S512x512 .bf16) (w : FVec Ideal S512x128 .bf16) (q : Fin 512) (g : Fin 128) :
    matmul dot_S512x512_S512x128_S512x128_1_0_0_1_n_n none l w (constant (F := Ideal) S512x128 .f32 0x00000000#32) (ix2 q g)
      = ∑ j : Fin 512, l (ix2 q j) * w (ix2 j g) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 q g) ((contrEquiv1 dot_S512x512_S512x128_S512x128_1_0_0_1_n_n 512 rfl rfl).symm k) = ix2 q k := funext fun a => Fin.ext (by
    match a with
    | ⟨0, _⟩ => exact lhsW2_0 _ _
    | ⟨1, _⟩ => exact (lhsW2_1 _ _).trans hk)
  have er : dot_S512x512_S512x128_S512x128_1_0_0_1_n_n.rhsIdx (ix2 q g) ((contrEquiv1 dot_S512x512_S512x128_S512x128_1_0_0_1_n_n 512 rfl rfl).symm k) = ix2 k g := funext fun a => Fin.ext (by
    match a with
    | ⟨0, _⟩ => exact (rhsW2_0 _ _).trans hk
    | ⟨1, _⟩ => exact rhsW2_1 _ _)
  rw [el, er]

/-! ## The two re-layouts -/

/-- [512, 4, 128] laid out as 2048 rows: row r is batch row r / 4, edge type r % 4. -/
theorem rows2048_apply {α : Type} (v : S512x4x128.Idx → α) (r : Fin 2048) (d : Fin 128) :
    shapeCast S2048x128 v shapeCasts_S512x4x128_S2048x128 (ix2 r d)
      = v (ix3 (⟨r.val / 4, by have := r.isLt; omega⟩ : Fin 512) (⟨r.val % 4, Nat.mod_lt _ (by decide)⟩ : Fin 4) d) :=
  shapeCast_apply v shapeCasts_S512x4x128_S2048x128 _ _ (by
    rw [Shape.rowMajor_val_three, Shape.rowMajor_val_two]
    show ((r.val / 4) * 4 + r.val % 4) * 128 + d.val = r.val * 128 + d.val
    omega)

/-- [2048, 128] laid out as [512, 512]: column j of batch row q is row q·4 + j / 128, column j % 128. -/
theorem cols512_apply {α : Type} (v : S2048x128.Idx → α) (q : Fin 512) (j : Fin 512) :
    shapeCast S512x512 v shapeCasts_S2048x128_S512x512 (ix2 q j)
      = v (ix2 (⟨q.val * 4 + j.val / 128, by have := q.isLt; have := j.isLt; omega⟩ : Fin 2048) (⟨j.val % 128, Nat.mod_lt _ (by decide)⟩ : Fin 128)) :=
  shapeCast_apply v shapeCasts_S2048x128_S512x512 _ _ (by
    rw [Shape.rowMajor_val_two, Shape.rowMajor_val_two]
    show (q.val * 4 + j.val / 128) * 128 + j.val % 128 = q.val * 512 + j.val
    omega)

/-- A bias vector laid out as one row and repeated down 2048 rows. -/
theorem bias2048_apply (b : FVec Ideal S128 .f32) (r : Fin 2048) (f : Fin 128) :
    broadcastTo S2048x128 (shapeCast S1x128 b shapeCasts_S128_S1x128) broadcasts_S1x128_S2048x128 (ix2 r f) = b (ix1 f) :=
  (broadcastTo_1b_ab_apply _ broadcasts_S1x128_S2048x128 r f).trans (shapeCast_a_1a_apply b shapeCasts_S128_S1x128 0 f)

/-- A bias vector laid out as one row and repeated down 512 rows. -/
theorem bias512_apply (b : FVec Ideal S128 .f32) (q : Fin 512) (g : Fin 128) :
    broadcastTo S512x128 (shapeCast S1x128 b shapeCasts_S128_S1x128) broadcasts_S1x128_S512x128 (ix2 q g) = b (ix1 g) :=
  (broadcastTo_1b_ab_apply _ broadcasts_S1x128_S512x128 q g).trans (shapeCast_a_1a_apply b shapeCasts_S128_S1x128 0 g)

/-! ## The body's stages -/

/-- The mean neighbour embeddings of the block. -/
def meanBlk (v0 : FVec Ideal S512x4x16x128 .f32) : FVec Ideal S512x4x128 .f32 :=
  divf (multiReduction .add [2] S512x4x128 (shapeCast S512x4x16x128 v0 shapeCasts_S512x4x16x128_S512x4x16x128) 0x00000000#32
      reduces_S512x4x16x128_S512x4x128 (.inl rfl) rfl)
    (broadcast S512x4x128 (Scalar.ofBits (F := Ideal) .f32 0x41800000#32))

theorem meanBlk_apply (v0 : FVec Ideal S512x4x16x128 .f32) (q : Fin 512) (e : Fin 4) (d : Fin 128) :
    meanBlk v0 (ix3 q e d) = nbrMean (fun k => v0 (ix4 q e k d)) := by
  unfold meanBlk nbrMean
  rw [shapeCast_self]
  exact congrArg (fun s => Ideal.div s (Ideal.ofBits .f32 0x41800000#32)) (nbr_sum v0 q e d)

/-- The first layer on the 2048 (row, edge type) pairs. -/
def hidBlk (v0 : FVec Ideal S512x4x16x128 .f32) (v7 : FVec Ideal S128x128 .f32) (v10 : FVec Ideal S128 .f32) : FVec Ideal S2048x128 .f32 :=
  addf (matmul dot_S2048x128_S128x128_S2048x128_1_0_0_1_n_n none
      (shapeCast S2048x128 (truncf .bf16 (meanBlk v0) bitsLt_bf16_f32) shapeCasts_S512x4x128_S2048x128)
      (truncf .bf16 v7 bitsLt_bf16_f32) (constant (F := Ideal) S2048x128 .f32 0x00000000#32))
    (broadcastTo S2048x128 (shapeCast S1x128 v10 shapeCasts_S128_S1x128) broadcasts_S1x128_S2048x128)

theorem hidBlk_apply (v0 : FVec Ideal S512x4x16x128 .f32) (v7 : FVec Ideal S128x128 .f32) (v10 : FVec Ideal S128 .f32)
    (r : Fin 2048) (f : Fin 128) :
    hidBlk v0 v7 v10 (ix2 r f)
      = hidden (fun e k d => v0 (ix4 (⟨r.val / 4, by have := r.isLt; omega⟩ : Fin 512) e k d)) (fun d f => v7 (ix2 d f)) (fun f => v10 (ix1 f))
          (⟨r.val % 4, Nat.mod_lt _ (by decide)⟩ : Fin 4) f := by
  unfold hidBlk hidden
  rw [addf_apply, mulW1_apply, bias2048_apply]
  refine congrArg (· + v10 (ix1 f)) (Finset.sum_congr rfl fun d _ => ?_)
  rw [rows2048_apply]
  exact congrArg (· * v7 (ix2 d f)) (meanBlk_apply v0 _ _ d)

/-- The second layer on the block's 512 rows. -/
def projBlk (v0 : FVec Ideal S512x4x16x128 .f32) (v7 : FVec Ideal S128x128 .f32) (v10 : FVec Ideal S128 .f32)
    (v16 : FVec Ideal S512x128 .f32) (v19 : FVec Ideal S128 .f32) : FVec Ideal S512x128 .f32 :=
  addf (matmul dot_S512x512_S512x128_S512x128_1_0_0_1_n_n none
      (truncf .bf16 (shapeCast S512x512 (hidBlk v0 v7 v10) shapeCasts_S2048x128_S512x512) bitsLt_bf16_f32)
      (truncf .bf16 v16 bitsLt_bf16_f32) (constant (F := Ideal) S512x128 .f32 0x00000000#32))
    (broadcastTo S512x128 (shapeCast S1x128 v19 shapeCasts_S128_S1x128) broadcasts_S1x128_S512x128)

theorem projBlk_apply (v0 : FVec Ideal S512x4x16x128 .f32) (v7 : FVec Ideal S128x128 .f32) (v10 : FVec Ideal S128 .f32)
    (v16 : FVec Ideal S512x128 .f32) (v19 : FVec Ideal S128 .f32) (q : Fin 512) (g : Fin 128) :
    projBlk v0 v7 v10 v16 v19 (ix2 q g)
      = (∑ j : Fin 512, hidden (fun e k d => v0 (ix4 q e k d)) (fun d f => v7 (ix2 d f)) (fun f => v10 (ix1 f)) (edgeOf j) (featOf j)
            * v16 (ix2 j g)) + v19 (ix1 g) := by
  unfold projBlk
  rw [addf_apply, mulW2_apply, bias512_apply]
  refine congrArg (· + v19 (ix1 g)) (Finset.sum_congr rfl fun j _ => ?_)
  refine congrArg (· * v16 (ix2 j g)) ?_
  refine (cols512_apply (hidBlk v0 v7 v10) q j).trans ?_
  refine (hidBlk_apply v0 v7 v10 _ _).trans ?_
  have hq : (⟨(q.val * 4 + j.val / 128) / 4, by have := q.isLt; have := j.isLt; omega⟩ : Fin 512) = q :=
    Fin.ext (by have := j.isLt; show (q.val * 4 + j.val / 128) / 4 = q.val; omega)
  have he : (⟨(q.val * 4 + j.val / 128) % 4, Nat.mod_lt _ (by decide)⟩ : Fin 4) = edgeOf j :=
    Fin.ext (by have := j.isLt; show (q.val * 4 + j.val / 128) % 4 = j.val / 128; omega)
  rw [hq, he]

/-- THE BODY'S STORED VALUE at row q is the row score of row q of the loaded blocks. -/
theorem payload_apply (v0 : FVec Ideal S512x4x16x128 .f32) (v7 : FVec Ideal S128x128 .f32) (v10 : FVec Ideal S128 .f32)
    (v16 : FVec Ideal S512x128 .f32) (v19 : FVec Ideal S128 .f32) (v23 v25 : FVec Ideal S512x128 .f32) (q : Fin 512) :
    k0_pay1 (F := Ideal) v0 v7 v10 v16 v19 v23 v25 (ix1 q)
      = rowScore (fun e k d => v0 (ix4 q e k d)) (fun g => v23 (ix2 q g)) (fun g => v25 (ix2 q g))
          (fun d f => v7 (ix2 d f)) (fun f => v10 (ix1 f)) (fun j g => v16 (ix2 j g)) (fun g => v19 (ix1 g)) := by
  show Ideal.logistic (multiReduction .add [1] S512
      (mulf (mulf (projBlk v0 v7 v10 v16 v19) (shapeCast S512x128 v23 shapeCasts_S512x128_S512x128))
        (logistic (shapeCast S512x128 v25 shapeCasts_S512x128_S512x128)))
      0x00000000#32 reduces_S512x128_S512 (.inl rfl) rfl (ix1 q)) = _
  unfold rowScore
  refine congrArg Ideal.logistic ((feat_sum _ q).trans (Finset.sum_congr rfl fun g _ => ?_))
  rw [shapeCast_self, shapeCast_self]
  show projBlk v0 v7 v10 v16 v19 (ix2 q g) * v23 (ix2 q g) * Ideal.logistic (v25 (ix2 q g)) = _
  rw [projBlk_apply]

end Cert.Hin2vec.Blk

end
-- ==== Proof.ScoresArray.lean ====
/-
  The kernel's result array is the row scores of the arrays the region finds.

  The grid has 16 points; point t works on batch rows t·512 … t·512 + 511: its neighbour, end and path blocks are
  those rows of the three gathered arrays, the weights are staged whole, and it writes rows t·512 … of the result. So
  what point t writes back is block t of the one whole-array function "row scores", and since every batch row b lies in
  the block of point b / 512 the blocks fill the result array.
-/
import proofs.«131472_j49589692400134_1_alg».proof.Proof.Gen.KernelIdeal.Value
import proofs.«131472_j49589692400134_1_alg».proof.Proof.BlockScore

set_option maxRecDepth 16384

noncomputable section

namespace Cert.Hin2vec.Arr

open Cert.KernelIdeal Cert.KernelIdeal.Gen Idealize.ShloMosaic Idealize.ShloMosaic.TcCoe Idealize.SL.Sem
open Idealize.ShloMosaic.ValueIdx Cert.Hin2vec
open Idealize.ShloMosaic.Pipeline (Dat)

variable (m : (ℓ : Loc nD τ sig) → Buf (Elt Ideal) ℓ) (ρ : Dev nD → PrngReg)

theorem off1 : (![0] : Fin 1 → Nat) = fun _ => 0 := funext fun a => by fin_cases a <;> rfl
theorem off2 : (![0, 0] : Fin 2 → Nat) = fun _ => 0 := funext fun a => by fin_cases a <;> rfl
theorem off4 : (![0, 0, 0, 0] : Fin 4 → Nat) = fun _ => 0 := funext fun a => by fin_cases a <;> rfl

/-- The row scores of the three gathered arrays and the weights as the region finds them. -/
abbrev result (c : Dev nD) : S8192.Idx → EReal :=
  scores (V m c main_v6 : S8192x4x16x128.Idx → EReal) (V m c main_v13 : S8192x128.Idx → EReal) (V m c main_v20 : S8192x128.Idx → EReal)
    (V m c main_arg6 : S128x128.Idx → EReal) (V m c main_arg7 : S128.Idx → EReal) (V m c main_arg8 : S512x128.Idx → EReal)
    (V m c main_arg9 : S128.Idx → EReal)

/-- The printed index maps, decided over the 16 points: the three batch-blocked inputs and the output are at block t on
    the batch axis and at block 0 on every other axis; the weights are at block 0. -/
theorem where_blocks : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = t.val :=
  (by decide +kernel : ∀ t : Fin grid0.N, _)

theorem point_lt (t : Fin cfg0.N) : t.val < 16 := lt_of_lt_of_eq t.isLt N_0

/-- The batch row of the whole arrays that row q of point t's blocks is. -/
abbrev rowOf (t : Fin cfg0.N) (q : Fin 512) : Fin 8192 := ⟨t.val * 512 + q.val, by have := point_lt t; have := q.isLt; omega⟩

/-! ## Each window's block at point t, read at an index -/

theorem nei_blk (c : Dev nD) (t : Fin cfg0.N) (q : Fin 512) (e : Fin 4) (k : Fin 16) (d : Fin 128) :
    iblk m c 0 t (ix4 q e k d) = (V m c main_v6 : S8192x4x16x128.Idx → EReal) (ix4 (rowOf t q) e k d) := by
  obtain ⟨h0, h1, h2, h3, -⟩ := where_blocks t
  show V m c main_v6 (((cfg0.win 0).blk t).view.emb (ix4 q e k d)) = V m c main_v6 (ix4 (rowOf t q) e k d)
  refine congrArg (V m c main_v6) (funext fun a => Fin.ext ?_)
  match a with
  | ⟨0, _⟩ => show win0_0.index t (0 : Fin 4) * 512 + 1 * q.val = t.val * 512 + q.val; omega
  | ⟨1, _⟩ => show win0_0.index t (1 : Fin 4) * 4 + 1 * e.val = e.val; omega
  | ⟨2, _⟩ => show win0_0.index t (2 : Fin 4) * 16 + 1 * k.val = k.val; omega
  | ⟨3, _⟩ => show win0_0.index t (3 : Fin 4) * 128 + 1 * d.val = d.val; omega

theorem end_blk (c : Dev nD) (t : Fin cfg0.N) (q : Fin 512) (g : Fin 128) :
    iblk m c 1 t (ix2 q g) = (V m c main_v13 : S8192x128.Idx → EReal) (ix2 (rowOf t q) g) := by
  obtain ⟨-, -, -, -, h0, h1, -⟩ := where_blocks t
  show V m c main_v13 (((cfg0.win 1).blk t).view.emb (ix2 q g)) = V m c main_v13 (ix2 (rowOf t q) g)
  refine congrArg (V m c main_v13) (funext fun a => Fin.ext ?_)
  match a with
  | ⟨0, _⟩ => show win0_1.index t (0 : Fin 2) * 512 + 1 * q.val = t.val * 512 + q.val; omega
  | ⟨1, _⟩ => show win0_1.index t (1 : Fin 2) * 128 + 1 * g.val = g.val; omega

theorem path_blk (c : Dev nD) (t : Fin cfg0.N) (q : Fin 512) (g : Fin 128) :
    iblk m c 2 t (ix2 q g) = (V m c main_v20 : S8192x128.Idx → EReal) (ix2 (rowOf t q) g) := by
  obtain ⟨-, -, -, -, -, -, h0, h1, -⟩ := where_blocks t
  show V m c main_v20 (((cfg0.win 2).blk t).view.emb (ix2 q g)) = V m c main_v20 (ix2 (rowOf t q) g)
  refine congrArg (V m c main_v20) (funext fun a => Fin.ext ?_)
  match a with
  | ⟨0, _⟩ => show win0_2.index t (0 : Fin 2) * 512 + 1 * q.val = t.val * 512 + q.val; omega
  | ⟨1, _⟩ => show win0_2.index t (1 : Fin 2) * 128 + 1 * g.val = g.val; omega

theorem w1_blk (c : Dev nD) (t : Fin cfg0.N) (d f : Fin 128) :
    iblk m c 3 t (ix2 d f) = (V m c main_arg6 : S128x128.Idx → EReal) (ix2 d f) := by
  obtain ⟨-, -, -, -, -, -, -, -, h0, h1, -⟩ := where_blocks t
  show V m c main_arg6 (((cfg0.win 3).blk t).view.emb (ix2 d f)) = V m c main_arg6 (ix2 d f)
  refine congrArg (V m c main_arg6) (funext fun a => Fin.ext ?_)
  match a with
  | ⟨0, _⟩ => show win0_3.index t (0 : Fin 2) * 128 + 1 * d.val = d.val; omega
  | ⟨1, _⟩ => show win0_3.index t (1 : Fin 2) * 128 + 1 * f.val = f.val; omega

theorem b1_blk (c : Dev nD) (t : Fin cfg0.N) (f : Fin 128) :
    iblk m c 4 t (ix1 f) = (V m c main_arg7 : S128.Idx → EReal) (ix1 f) := by
  obtain ⟨-, -, -, -, -, -, -, -, -, -, h0, -⟩ := where_blocks t
  show V m c main_arg7 (((cfg0.win 4).blk t).view.emb (ix1 f)) = V m c main_arg7 (ix1 f)
  refine congrArg (V m c main_arg7) (funext fun a => Fin.ext ?_)
  match a with
  | ⟨0, _⟩ => show win0_4.index t (0 : Fin 1) * 128 + 1 * f.val = f.val; omega

theorem w2_blk (c : Dev nD) (t : Fin cfg0.N) (j : Fin 512) (g : Fin 128) :
    iblk m c 5 t (ix2 j g) = (V m c main_arg8 : S512x128.Idx → EReal) (ix2 j g) := by
  obtain ⟨-, -, -, -, -, -, -, -, -, -, -, h0, h1, -⟩ := where_blocks t
  show V m c main_arg8 (((cfg0.win 5).blk t).view.emb (ix2 j g)) = V m c main_arg8 (ix2 j g)
  refine congrArg (V m c main_arg8) (funext fun a => Fin.ext ?_)
  match a with
  | ⟨0, _⟩ => show win0_5.index t (0 : Fin 2) * 512 + 1 * j.val = j.val; omega
  | ⟨1, _⟩ => show win0_5.index t (1 : Fin 2) * 128 + 1 * g.val = g.val; omega

theorem b2_blk (c : Dev nD) (t : Fin cfg0.N) (g : Fin 128) :
    iblk m c 6 t (ix1 g) = (V m c main_arg9 : S128.Idx → EReal) (ix1 g) := by
  obtain ⟨-, -, -, -, -, -, -, -, -, -, -, -, -, h0, -⟩ := where_blocks t
  show V m c main_arg9 (((cfg0.win 6).blk t).view.emb (ix1 g)) = V m c main_arg9 (ix1 g)
  refine congrArg (V m c main_arg9) (funext fun a => Fin.ext ?_)
  match a with
  | ⟨0, _⟩ => show win0_6.index t (0 : Fin 1) * 128 + 1 * g.val = g.val; omega

/-- Row q of the output block of point t is batch row t·512 + q of the result array. -/
theorem out_row (t : Fin cfg0.N) (q : Fin 512) : ((cfg0.win 7).blk t).view.emb (ix1 q) = ix1 (rowOf t q) := by
  obtain ⟨-, -, -, -, -, -, -, -, -, -, -, -, -, -, h0⟩ := where_blocks t
  refine funext fun a => Fin.ext ?_
  match a with
  | ⟨0, _⟩ => show win0_7.index t (0 : Fin 1) * 512 + 1 * q.val = t.val * 512 + q.val; omega

/-! ## From the blocks to the array -/

/-- WHAT POINT t WRITES BACK is block t of the row scores. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero off1]
  simp only [View.ld_unit_zero (S := S512x4x16x128) off4, View.ld_unit_zero (S := S128x128) off2,
    View.ld_unit_zero (S := S128) off1, View.ld_unit_zero (S := S512x128) off2]
  funext j
  obtain ⟨q, rfl⟩ : ∃ q : Fin 512, j = ix1 q := ⟨j 0, eq_ix1 j⟩
  show k0_pay1 (F := Ideal) (iblk m c 0 t) (iblk m c 3 t) (iblk m c 4 t) (iblk m c 5 t) (iblk m c 6 t) (iblk m c 1 t) (iblk m c 2 t) (ix1 q)
    = result m c (((cfg0.win 7).blk t).view.emb (ix1 q))
  refine (Blk.payload_apply (iblk m c 0 t) (iblk m c 3 t) (iblk m c 4 t) (iblk m c 5 t) (iblk m c 6 t) (iblk m c 1 t) (iblk m c 2 t) q).trans ?_
  rw [out_row]
  show _ = rowScore _ _ _ _ _ _ _
  simp only [nei_blk, end_blk, path_blk, w1_blk, b1_blk, w2_blk, b2_blk]

/-- An index of the result array is in point t's block iff it is one of the 512 batch rows from t·512 on. -/
theorem mem_blk (t : Fin cfg0.N) (i : S8192.Idx) :
    i ∈ ((cfg0.win 7).blk t).view.set ↔ ∀ a : Fin 1, win0_7.index t a * S512.size a ≤ (i a).val ∧ (i a).val < win0_7.index t a * S512.size a + S512.size a := by
  show i ∈ ((View.whole main_v21).slice (win0_7.rect t)).set ↔ _
  rw [View.set_slice_whole, Rect.mem_set_unit]
  exact Iff.rfl

/-- Every batch row is in the block of the point b / 512. -/
theorem covered (i : S8192.Idx) : ∃ t : Fin cfg0.N, (cfg0.win 7).flush t = true ∧ i ∈ ((cfg0.win 7).blk t).view.set := by
  have hi : (i 0).val < 8192 := (i 0).isLt
  let t : Fin cfg0.N := ⟨(i 0).val / 512, lt_of_lt_of_eq (show (i 0).val / 512 < 16 by omega) N_0.symm⟩
  obtain ⟨-, -, -, -, -, -, -, -, -, -, -, -, -, -, h0⟩ := where_blocks t
  refine ⟨t, flush0_7 t, ?_⟩
  rw [mem_blk]
  intro a
  match a with
  | ⟨0, _⟩ =>
    show win0_7.index t (0 : Fin 1) * 512 ≤ (i 0).val ∧ (i 0).val < win0_7.index t (0 : Fin 1) * 512 + 512
    have ht : t.val = (i 0).val / 512 := rfl
    omega

/-- THE RESULT ARRAY after the run is the row scores. -/
theorem final (c : Dev nD) : (dats m 0 c).arrAt 7 cfg0.N = result m c :=
  (dats m 0 c).arrAt_eq_of_cover 7 (result m c) (fun t _ => flushed_eq m c t) covered

/-- The kernel's run: the result array at the row scores of what the region finds, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Hin2vec.Arr

end
-- ==== Proof.Gathered.lean ====
/-
  Both programs gather the same rows.

  Before its one region the kernel's program runs the same host operations as the reference to build the three gathered
  arrays: a negative index is shifted up by the table's length, and the rows at those indices are taken from the
  table. So each gathered array, as the region finds it, is the reference's gather stage of the same arguments. The
  gathers themselves are never opened.
-/
import proofs.«131472_j49589692400134_1_alg».proof.Proof.Gen.KernelIdeal.Frame
import proofs.«131472_j49589692400134_1_alg».proof.Proof.Gen.ReferenceIdeal.Read
import Idealize.ShloMosaic.Lib.StableHlo.Run

set_option maxRecDepth 16384

noncomputable section

namespace Cert.Hin2vec.Gathered

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The gathered neighbour rows. -/
theorem nei_eq (c : Dev nD) :
    (V m c main_v6 : S8192x4x16x128.Idx → EReal)
      = Cert.ReferenceIdeal.Read.val_main_v6 (F := Ideal) (m ((c : Thread nD τ).loc main_arg0)) (m ((c : Thread nD τ).loc main_arg3)) := by
  dsimp only [V, hostOps0]
  after_results
  rfl

set_option maxHeartbeats 2000000 in
/-- The gathered end-node rows. -/
theorem end_eq (c : Dev nD) :
    (V m c main_v13 : S8192x128.Idx → EReal)
      = Cert.ReferenceIdeal.Read.val_main_v25 (F := Ideal) (m ((c : Thread nD τ).loc main_arg1)) (m ((c : Thread nD τ).loc main_arg4)) := by
  dsimp only [V, hostOps0]
  after_results
  rfl

set_option maxHeartbeats 4000000 in
/-- The gathered path rows. -/
theorem path_eq (c : Dev nD) :
    (V m c main_v20 : S8192x128.Idx → EReal)
      = Cert.ReferenceIdeal.Read.val_main_v32 (F := Ideal) (m ((c : Thread nD τ).loc main_arg2)) (m ((c : Thread nD τ).loc main_arg5)) := by
  dsimp only [V, hostOps0]
  after_results
  rfl

end Cert.Hin2vec.Gathered

end
-- ==== Proof.lean ====
/-
  A batch of 8192 graph nodes, each with 4 edge types of 16 neighbours, scored against an end node and a path:

    score(b) = σ( Σ_g ( (Σ_j h(b)_j · W2[j, g]) + b2[g] ) · emb_end[end_node b][g] · σ(emb_path[path b][g]) ),
    h(b)_(e·128 + f) = (Σ_d (mean over the 16 neighbours of emb_start[neighbors b e ·][d]) · W1[d, f]) + b1[f].

  Both programs gather the neighbour, end and path rows with the same host operations. The reference then computes the
  scores with whole-array operations; the kernel computes them in 16 blocks of 512 batch rows, laying the (row, edge
  type) pairs out as rows for one matrix product with W1 and side by side for one with W2, in reduced float formats.
  On the extended reals a change of float format is the identity, a matrix product into a zero accumulator and a
  dot_general are the same sum of products, a lane sum and a host sum (from the zero word) are the same sum, and
  the kernel's logistic and the reference's 1 / (1 + exp(-x)) are one function by definition; the two re-layouts name
  the same (edge type, feature) pair. So both results are the row scores (Proof/RowScore.lean) of the same gathered
  arrays and weights: the reference's by reading its operations one at a time (Proof/RefScores.lean), the kernel's
  by reading the body's stored value at a row of its blocks (Proof/BlockScore.lean) and the blocks filling the result
  (Proof/ScoresArray.lean); the gathered arrays are the same terms (Proof/Gathered.lean). No sum is regrouped across
  a product, so nothing here needs the inputs to be finite.

  The three frames: the kernel's two are the generated frame certificates; the reference has no kernel, and its frame
  is its run with the result dropped. The idealization rewrote nothing, so there is nothing to preserve.
-/
import proofs.«131472_j49589692400134_1_alg».proof.Defs
import proofs.«131472_j49589692400134_1_alg».proof.Proof.Gen.Kernel
import proofs.«131472_j49589692400134_1_alg».proof.Proof.Gen.Kernel.Skeleton
import proofs.«131472_j49589692400134_1_alg».proof.Proof.Gen.Kernel.Launch
import proofs.«131472_j49589692400134_1_alg».proof.Proof.Gen.Kernel.Points
import proofs.«131472_j49589692400134_1_alg».proof.Proof.Gen.Kernel.Frame
import proofs.«131472_j49589692400134_1_alg».proof.Proof.Gen.KernelIdeal
import proofs.«131472_j49589692400134_1_alg».proof.Proof.Gen.KernelIdeal.Skeleton
import proofs.«131472_j49589692400134_1_alg».proof.Proof.Gen.KernelIdeal.Launch
import proofs.«131472_j49589692400134_1_alg».proof.Proof.Gen.KernelIdeal.Points
import proofs.«131472_j49589692400134_1_alg».proof.Proof.Gen.KernelIdeal.Frame
import proofs.«131472_j49589692400134_1_alg».proof.Proof.Gen.ReferenceIdeal
import proofs.«131472_j49589692400134_1_alg».proof.Proof.Gen.Pre_finite_inputs
import proofs.«131472_j49589692400134_1_alg».proof.Proof.Gen.KernelIdeal.Value
import proofs.«131472_j49589692400134_1_alg».proof.Proof.Gen.ReferenceIdeal.Run
import proofs.«131472_j49589692400134_1_alg».proof.Proof.Gen.ReferenceIdeal.Read
import proofs.«131472_j49589692400134_1_alg».proof.Proof.RefScores
import proofs.«131472_j49589692400134_1_alg».proof.Proof.ScoresArray
import proofs.«131472_j49589692400134_1_alg».proof.Proof.Gathered
import Idealize.ShloMosaic.Adequacy
import Idealize.ShloMosaic.Init

noncomputable section

namespace Cert.Proof

open Idealize.ShloMosaic Idealize.SL.Sem

/-- The two idealized programs, run from memories that agree on the arguments, end with the same scores: the kernel's
    result array is the row scores of the gathered arrays as its region finds them, which are the reference's gather
    stages of the same arguments, and the reference's result is the row scores of those. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Hin2vec.Arr.result m c, Cert.Hin2vec.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  refine (Cert.ReferenceIdeal.Read.val_main_v47_eq (F := Ideal) _ _ _ _ _ _ _ _ _ _).trans ?_
  refine (Cert.Hin2vec.Ref.result_eq _ _ _ _ _ _ _ _ _ _).trans ?_
  rw [a0, a1, a2, a3, a4, a5, a6, a7, a8, a9]
  show _ = Cert.Hin2vec.scores _ _ _ _ _ _ _
  rw [Cert.Hin2vec.Gathered.nei_eq, Cert.Hin2vec.Gathered.end_eq, Cert.Hin2vec.Gathered.path_eq,
    Cert.KernelIdeal.Gen.V_main_arg6, Cert.KernelIdeal.Gen.V_main_arg7, Cert.KernelIdeal.Gen.V_main_arg8,
    Cert.KernelIdeal.Gen.V_main_arg9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
